-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x16384 : Shape := ⟨3, ![2048, 4, 16384]⟩
abbrev S4096x16384 : Shape := ⟨2, ![4096, 16384]⟩
abbrev S4096 : Shape := ⟨1, ![4096]⟩
abbrev S_ : Shape := ⟨0, ![]⟩

class Facts : Prop where
  bcast_S_S2048x4x16384 : S_.BroadcastsInDim S2048x4x16384 (![] : Fin 0 → Fin S2048x4x16384.rank)
  reducesTo_S2048x4x16384_S_d0_1_2 : S2048x4x16384.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4x16384 .f32) (main_arg1 : FVec F S4096x16384 .f32) (main_arg2 : FVec F S4096 .f32) : IVec S_ 1 :=
  let main_v0 : FVec F S2048x4x16384 .f32 := Host.absf main_arg0
  let main_cst : FVec F S_ .f32 := constant S_ .f32 0x7F800000#32
  let main_v1 : FVec F S2048x4x16384 .f32 := broadcastInDim S2048x4x16384 ![] bcast_S_S2048x4x16384 main_cst
  let main_v2 : IVec S2048x4x16384 1 := cmpf .olt main_v0 main_v1
  let main_c : IVec S_ 1 := constantI S_ 1 1#1
  let main_v3 : IVec S_ 1 := (fun x v => Host.reduce IntOp.andi x v reducesTo_S2048x4x16384_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4x16384 : Shape := ⟨3, ![2048, 4, 16384]⟩
abbrev S4096x16384 : Shape := ⟨2, ![4096, 16384]⟩
abbrev S4096 : Shape := ⟨1, ![4096]⟩
abbrev S8192x16384 : Shape := ⟨2, ![8192, 16384]⟩
abbrev S8192x4096 : Shape := ⟨2, ![8192, 4096]⟩
abbrev S1024x1024 : Shape := ⟨2, ![1024, 1024]⟩
abbrev S1024 : Shape := ⟨1, ![1024]⟩
abbrev S1x1024 : Shape := ⟨2, ![1, 1024]⟩
abbrev S2048x4x4096 : Shape := ⟨3, ![2048, 4, 4096]⟩

abbrev nBuf : Space → Nat
  | .hbm => 6
  | .vmem => 9
  | .smem => 0
  | _ => 0

abbrev bufTy : (tb : Table) → Fin (tcTables nBuf tb) → BufTy
  | .hbm, ⟨0, _⟩ => ⟨S2048x4x16384, .f32⟩
  | .hbm, ⟨1, _⟩ => ⟨S4096x16384, .f32⟩
  | .hbm, ⟨2, _⟩ => ⟨S4096, .f32⟩
  | .hbm, ⟨3, _⟩ => ⟨S8192x16384, .f32⟩
  | .hbm, ⟨4, _⟩ => ⟨S8192x4096, .f32⟩
  | .hbm, ⟨5, _⟩ => ⟨S2048x4x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2048x4x16384_S8192x16384 : S2048x4x16384.ShapeCasts S8192x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S1024x1024 : S1x1024.Broadcasts S1024x1024
  shapeCasts_S8192x4096_S2048x4x4096 : S8192x4096.ShapeCasts S2048x4x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x16384.size a
  hwx0_0 : ∀ i : grid0.Coords, EltTy.bits .f32 = 32 ∨ (Rect.block (s := S8192x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x16384.size a
  hwx0_1 : ∀ i : grid0.Coords, EltTy.bits .f32 = 32 ∨ (Rect.block (s := S4096x16384) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x4x16384 : Shape := ⟨3, ![2048, 4, 16384]⟩
abbrev S4096x16384 : Shape := ⟨2, ![4096, 16384]⟩
abbrev S4096 : Shape := ⟨1, ![4096]⟩
abbrev S2048x4x4096 : Shape := ⟨3, ![2048, 4, 4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x4x16384, .f32⟩
  | .hbm, ⟨1, _⟩ => ⟨S4096x16384, .f32⟩
  | .hbm, ⟨2, _⟩ => ⟨S4096, .f32⟩
  | .hbm, ⟨3, _⟩ => ⟨S2048x4x4096, .f32⟩
  | .hbm, ⟨4, _⟩ => ⟨S1x1x4096, .f32⟩
  | .hbm, ⟨5, _⟩ => ⟨S2048x4x4096, .f32⟩
  | .hbm, ⟨6, _⟩ => ⟨S2048x4x4096, .f32⟩
  | _, _ => ⟨S2048x4x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2048x4x4096_0_1_2 : S1x1x4096.BroadcastsInDim S2048x4x4096 (![0, 1, 2] : Fin 3 → Fin S2048x4x4096.rank)
  dot_S2048x4x16384_S4096x16384_S2048x4x4096_2_1_01_0_n_n_wf : DotDims.WF S2048x4x16384 S4096x16384 S2048x4x4096 [2] [1] [0, 1] [0] [] []

variable [Facts₀]

def dot_S2048x4x16384_S4096x16384_S2048x4x4096_2_1_01_0_n_n : DotDims S2048x4x16384 S4096x16384 S2048x4x4096 where
  lhsContracting := [2]
  rhsContracting := [1]
  lhsNonContracting := [0, 1]
  rhsNonContracting := [0]
  lhsBatch := []
  rhsBatch := []
  wf := dot_S2048x4x16384_S4096x16384_S2048x4x4096_2_1_01_0_n_n_wf

class Facts : Prop extends Facts₀ where

variable [Facts]
-- ==== Proof.Pieces.lean ====
/-
  What each control case of the body leaves behind, as values of the blocks it was given (at any float instance).

  A grid point (i, j, k) is in one of three cases. At k = 0 the accumulator is reset to the zero block and then
  updated; at 0 < k < 15 it is updated over what the point before left; at k = 15 it is updated and the output block
  is stored as the updated accumulator plus the bias row. Here the covering stores found by the body's run are read
  back as the stored values themselves:
    * first point of a run of k:  accumulator = update(x, w, reset)                (`acc_first`)
    * middle point:               accumulator = update(x, w, previous accumulator) (`acc_middle`)
    * last point:                 accumulator = update(x, w, previous accumulator) (`acc_last`),
                                  output block = biased(b, that accumulator)       (`out_last`).
-/
import proofs.«102757_j44856638439901_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin2 : (![0, 0] : Fin 2 → Nat) = fun _ => 0 := funext fun a => by fin_cases a <;> rfl
theorem origin1 : (![0] : Fin 1 → Nat) = fun _ => 0 := funext fun a => by fin_cases a; rfl

/-- k = 0: the reset block, read back, updated with the point's two blocks. -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .f32) (x2 : Vec F S1024 .f32) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, View.ld_unit_zero (S := S1024x1024) origin2]

/-- 0 < k < 15: what the point before left, updated with the point's two blocks. -/
theorem acc_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .f32) (x2 : Vec F S1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin2]
  simp only [View.readAt_eq_ld, harg3.read_unread, harg4.read_unread, harg7.read_unread, View.ld_unit_zero (S := S1024x1024) origin2]

/-- k = 15: the accumulator is updated as at a middle point; -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin2]
  simp only [View.readAt_eq_ld, harg3.read_unread, harg4.read_unread, harg7.read_unread, View.ld_unit_zero (S := S1024x1024) origin2]

/-- and the output block is that accumulator, read back, plus the bias row. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1024 .f32) (xs0 : Vec F S1024x1024 .f32) :
    out0_C_3 c i arg3 harg3 arg4 harg4 arg5 harg5 arg6 harg6 arg7 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin2]
  simp only [View.readCov_unit_zero (S := S1024x1024) _ origin2, View.readAt_eq_ld, harg3.read_unread, harg4.read_unread,
    harg5.read_unread, harg7.read_unread, View.ld_unit_zero (S := S1024x1024) origin2, View.ld_unit_zero (S := S1024) origin1]

end Cert.KernelIdeal.Pieces

end
-- ==== Proof.NatRead.lean ====
/-
  Arrays of rank one, two and three read at natural-number coordinates: the entry when every coordinate is inside
  the array's extent, zero outside. With them an array's entry is named by plain arithmetic on its coordinates
  (a block's offset plus a position inside the block), with no bound carried inside the term.
-/
import Idealize.ShloMosaic.Lib.ValueIdx

noncomputable section

open Idealize.ShloMosaic Idealize.ShloMosaic.ValueIdx

namespace Cert.NatRead

variable {α : Type} [Zero α]

/-- Entry `a` of a vector of length `n`; zero when `a` is outside it. -/
def at1 {n : Nat} (x : (⟨1, ![n]⟩ : Shape).Idx → α) (a : Nat) : α :=
  if h : a < n then x (ix1 ⟨a, h⟩) else 0

/-- Entry `(a, b)` of an `n0 × n1` matrix; zero outside it. -/
def at2 {n0 n1 : Nat} (x : (⟨2, ![n0, n1]⟩ : Shape).Idx → α) (a b : Nat) : α :=
  if h : a < n0 ∧ b < n1 then x (ix2 ⟨a, h.1⟩ ⟨b, h.2⟩) else 0

/-- Entry `(a, b, c)` of an `n0 × n1 × n2` array; zero outside it. -/
def at3 {n0 n1 n2 : Nat} (x : (⟨3, ![n0, n1, n2]⟩ : Shape).Idx → α) (a b c : Nat) : α :=
  if h : a < n0 ∧ b < n1 ∧ c < n2 then x (ix3 ⟨a, h.1⟩ ⟨b, h.2.1⟩ ⟨c, h.2.2⟩) else 0

/-- An entry of a vector is `at1` at its coordinate. -/
theorem at1_of_val {n : Nat} (x : (⟨1, ![n]⟩ : Shape).Idx → α) (i : (⟨1, ![n]⟩ : Shape).Idx) (a : Nat)
    (h0 : (i 0).val = a) : x i = at1 x a := by
  subst h0
  have hlt : (i 0).val < n := (i 0).isLt
  unfold at1
  rw [dif_pos hlt]
  exact congrArg x (eq_ix1 i)

/-- An entry of a matrix is `at2` at its two coordinates. -/
theorem at2_of_val {n0 n1 : Nat} (x : (⟨2, ![n0, n1]⟩ : Shape).Idx → α) (i : (⟨2, ![n0, n1]⟩ : Shape).Idx) (a b : Nat)
    (h0 : (i 0).val = a) (h1 : (i 1).val = b) : x i = at2 x a b := by
  subst h0; subst h1
  have hlt : (i 0).val < n0 ∧ (i 1).val < n1 := ⟨(i 0).isLt, (i 1).isLt⟩
  unfold at2
  rw [dif_pos hlt]
  exact congrArg x (eq_ix2 i)

/-- An entry of a rank-three array is `at3` at its three coordinates. -/
theorem at3_of_val {n0 n1 n2 : Nat} (x : (⟨3, ![n0, n1, n2]⟩ : Shape).Idx → α) (i : (⟨3, ![n0, n1, n2]⟩ : Shape).Idx)
    (a b c : Nat) (h0 : (i 0).val = a) (h1 : (i 1).val = b) (h2 : (i 2).val = c) : x i = at3 x a b c := by
  subst h0; subst h1; subst h2
  have hlt : (i 0).val < n0 ∧ (i 1).val < n1 ∧ (i 2).val < n2 := ⟨(i 0).isLt, (i 1).isLt, (i 2).isLt⟩
  unfold at3
  rw [dif_pos hlt]
  exact congrArg x (eq_ix3 i)

end Cert.NatRead

end
-- ==== Proof.Blocks.lean ====
/-
  Where each window's block sits in its array, at the extended reals.

  The grid is 8 × 4 × 16, walked with the last axis fastest: point number t has row tile i = t / 64, column tile
  j = t / 16 % 4 and depth tile k = t % 16. At that point the left matrix's block is rows i·1024 … and columns
  k·1024 … of the 8192 × 16384 matrix; the weight's block is rows j·1024 … and columns k·1024 … of the
  4096 × 16384 weight; the bias block is entries j·1024 … of the bias; the output block is rows i·1024 … and
  columns j·1024 … of the 8192 × 4096 result. A block entry is therefore an array entry at
  (tile · 1024 + position inside the block) on each axis.
-/
import proofs.«102757_j44856638439901_1_alg».proof.Proof.Gen.KernelIdeal.Frame
import proofs.«102757_j44856638439901_1_alg».proof.Proof.NatRead

noncomputable section

open Idealize.ShloMosaic Idealize.ShloMosaic.TcCoe Idealize.ShloMosaic.ValueIdx Idealize.SL.Sem

namespace Cert.KernelIdeal.Blocks

open Cert.KernelIdeal Cert.KernelIdeal.Gen Cert.NatRead

variable (m : (ℓ : Loc nD τ sig) → Buf (Elt Ideal) ℓ)

/-- The left matrix, the weight and the bias as the kernel region finds them. -/
abbrev lhsArr (c : Dev nD) : Vec Ideal S8192x16384 .f32 := V m c main_v0
abbrev wArr (c : Dev nD) : Vec Ideal S4096x16384 .f32 := V m c main_arg1
abbrev bArr (c : Dev nD) : Vec Ideal S4096 .f32 := V m c main_arg2

/-- Their blocks at grid point `t`. -/
abbrev lhsBlk (c : Dev nD) (t : Fin cfg0.N) : Vec Ideal S1024x1024 .f32 := iblk m c 0 t
abbrev wBlk (c : Dev nD) (t : Fin cfg0.N) : Vec Ideal S1024x1024 .f32 := iblk m c 1 t
abbrev bBlk (c : Dev nD) (t : Fin cfg0.N) : Vec Ideal S1024 .f32 := iblk m c 2 t

/-- The block indices of the four windows at point `t`, from the point's number. -/
theorem tile_of_point : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 1) = t.val / 16 % 4
    ∧ win0_3.index t (0 : Fin 2) = t.val / 64 ∧ win0_3.index t (1 : Fin 2) = t.val / 16 % 4 :=
  (by decide +kernel : ∀ t : Fin grid0.N, _)

/-- Entry (p, kk) of the left block at point `t` is entry (i·1024 + p, k·1024 + kk) of the left matrix. -/
theorem lhsBlk_apply (c : Dev nD) (t : Fin cfg0.N) (p kk : Fin 1024) :
    lhsBlk m c t (ix2 p kk) = at2 (lhsArr m c) (t.val / 64 * 1024 + p.val) (t.val % 16 * 1024 + kk.val) := by
  obtain ⟨e0, e1, -⟩ := tile_of_point t
  show iblk m c 0 t (ix2 p kk) = _
  unfold iblk
  rw [View.read_apply]
  show V m c main_v0 (((cfg0.win 0).blk t).view.emb (ix2 p kk)) = _
  refine at2_of_val (lhsArr m c) _ _ _ ?_ ?_
  · show win0_0.index t (0 : Fin 2) * 1024 + 1 * p.val = _
    rw [e0]; omega
  · show win0_0.index t (1 : Fin 2) * 1024 + 1 * kk.val = _
    rw [e1]; omega

/-- Entry (q, kk) of the weight block at point `t` is entry (j·1024 + q, k·1024 + kk) of the weight. -/
theorem wBlk_apply (c : Dev nD) (t : Fin cfg0.N) (q kk : Fin 1024) :
    wBlk m c t (ix2 q kk) = at2 (wArr m c) (t.val / 16 % 4 * 1024 + q.val) (t.val % 16 * 1024 + kk.val) := by
  obtain ⟨-, -, e0, e1, -⟩ := tile_of_point t
  show iblk m c 1 t (ix2 q kk) = _
  unfold iblk
  rw [View.read_apply]
  show V m c main_arg1 (((cfg0.win 1).blk t).view.emb (ix2 q kk)) = _
  refine at2_of_val (wArr m c) _ _ _ ?_ ?_
  · show win0_1.index t (0 : Fin 2) * 1024 + 1 * q.val = _
    rw [e0]; omega
  · show win0_1.index t (1 : Fin 2) * 1024 + 1 * kk.val = _
    rw [e1]; omega

/-- Entry q of the bias block at point `t` is entry j·1024 + q of the bias. -/
theorem bBlk_apply (c : Dev nD) (t : Fin cfg0.N) (q : Fin 1024) :
    bBlk m c t (ix1 q) = at1 (bArr m c) (t.val / 16 % 4 * 1024 + q.val) := by
  obtain ⟨-, -, -, -, e0, -⟩ := tile_of_point t
  show iblk m c 2 t (ix1 q) = _
  unfold iblk
  rw [View.read_apply]
  show V m c main_arg2 (((cfg0.win 2).blk t).view.emb (ix1 q)) = _
  refine at1_of_val (bArr m c) _ _ ?_
  show win0_2.index t (0 : Fin 1) * 1024 + 1 * q.val = _
  rw [e0]; omega

end Cert.KernelIdeal.Blocks

end
-- ==== Proof.BlockProduct.lean ====
/-
  What one grid point computes, entry by entry, over the extended reals.

  The body multiplies a 1024 × 1024 block of the left matrix by a 1024 × 1024 block of the weight, contracting the
  SECOND coordinate of both (the weight is stored output-major, so no transpose is taken): entry (p, q) of the
  product is the sum over kk of left(p, kk) · weight(q, kk) (`blockProduct_apply`). The rounding of both blocks to
  bf16 before the product is the identity on extended reals. The three stored values are then
    * the reset: the zero block (`resetBlock_apply`),
    * the update: the accumulator plus the block product (`updateBlock_apply`),
    * the epilogue: the accumulator plus the bias row, the same row added to each of the 1024 rows
      (`biasedBlock_apply`).
-/
import proofs.«102757_j44856638439901_1_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.BlockProduct

open Cert.KernelIdeal Cert.KernelIdeal.Gen

/-! ### The product's operand indices, axis by axis -/

theorem lhs_axis0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_axis0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- Entry `(p, q)` of the block product into a zero accumulator: `∑ kk, l (p, kk) * r (q, kk)`. -/
theorem blockProduct_apply {φ₁ φ₂ : FTy} (l : FVec Ideal S1024x1024 φ₁) (r : FVec Ideal S1024x1024 φ₂) (p q : Fin 1024) :
    matmul dot_S1024x1024_S1024x1024_S1024x1024_1_1_0_0_n_n none l r (constant S1024x1024 .f32 0x00000000#32) (ix2 p q)
      = ∑ kk : Fin 1024, l (ix2 p kk) * r (ix2 q kk) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ### The three stored values -/

/-- The reset stores the zero block. -/
theorem resetBlock_apply (j : S1024x1024.Idx) : k0_pay1 (F := Ideal) j = 0 := by
  unfold k0_pay1
  simp only [shapeCast_self]
  exact Ideal.ofBits_zero_f32

/-- The update stores the accumulator plus the block product. -/
theorem updateBlock_apply (x w acc : FVec Ideal S1024x1024 .f32) (p q : Fin 1024) :
    k0_pay2 (F := Ideal) x w acc (ix2 p q) = acc (ix2 p q) + ∑ kk : Fin 1024, x (ix2 p kk) * w (ix2 q kk) := by
  unfold k0_pay2
  simp only [shapeCast_self]
  rw [addf_apply, blockProduct_apply]
  rfl

/-- The epilogue stores the accumulator plus the bias row: entry (p, q) gets bias entry q. -/
theorem biasedBlock_apply (b : FVec Ideal S1024 .f32) (acc : FVec Ideal S1024x1024 .f32) (p q : Fin 1024) :
    k0_pay3 (F := Ideal) b acc (ix2 p q) = acc (ix2 p q) + b (ix1 q) := by
  unfold k0_pay3
  simp only [shapeCast_self]
  rw [addf_apply]
  refine congrArg (acc (ix2 p q) + ·) ?_
  refine (broadcastTo_apply _ _ (ix2 p q) (ix2 (0 : Fin 1) q) (fun a => ?_)).trans ?_
  · match a with
    | ⟨0, _⟩ => show (0 : Nat) = if (1 : Nat) = 1 then 0 else _; rw [if_pos rfl]
    | ⟨1, _⟩ => show q.val = if (1024 : Nat) = 1 then 0 else q.val; rw [if_neg (by decide)]
  · exact shapeCast_apply _ _ _ (ix1 q) (by
      rw [Shape.rowMajor_val_one, Shape.rowMajor_val_two]
      show q.val = 0 * 1024 + q.val
      omega)

end Cert.KernelIdeal.BlockProduct

end
-- ==== Proof.LibTiledSum.lean ====
/-
  Sums over a range cut into equal tiles, in any commutative additive monoid (the extended reals among them: no
  finiteness is used, only that addition commutes and associates).

  * `tile_lt`: position `b` of tile `a` lies inside `A` tiles of length `B`.
  * `sum_fin_tiles`: a sum over `N = A * B` indices is the sum over the tiles of the sums inside each tile.
  * `sum_range_tiles`: the same for a `Finset.range` sum of a function of the naturals.
  * `sum_sum_fin_tiles`: a double sum over a rectangle `(A * BJ) × (C * BK)` is the sum over the `A × C` tiles of the
    double sums inside each `BJ × BK` tile.
-/
import Mathlib.Algebra.BigOperators.Fin
import Mathlib.Algebra.BigOperators.Group.Finset.Basic
import Mathlib.Logic.Equiv.Fin.Basic
import Mathlib.Tactic.Ring

open scoped BigOperators

namespace TiledSum

/-- Position `b` of tile `a`, among `A` tiles of length `B`, is below `A * B`. -/
theorem tile_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B (by omega)

/-- A sum over `N = A * B` indices, tile by tile. -/
theorem sum_fin_tiles {M : Type*} [AddCommMonoid M] {N : ℕ} (A B : ℕ) (h : N = A * B) (f : Fin N → M) :
    ∑ j : Fin N, f j = ∑ a : Fin A, ∑ b : Fin B, f ⟨a.val * B + b.val, h ▸ tile_lt a b⟩ := by
  subst h
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- A `Finset.range` sum over `A * B` naturals, tile by tile. -/
theorem sum_range_tiles {M : Type*} [AddCommMonoid M] (A B : ℕ) (g : ℕ → M) :
    ∑ s ∈ Finset.range (A * B), g s = ∑ a : Fin A, ∑ b : Fin B, g (a.val * B + b.val) := by
  rw [Finset.sum_range, sum_fin_tiles A B rfl]

/-- A double sum over an `(A * BJ) × (C * BK)` rectangle: over the `A × C` tiles, then inside each `BJ × BK` tile. -/
theorem sum_sum_fin_tiles {M : Type*} [AddCommMonoid M] {NJ NK : ℕ} (A BJ C BK : ℕ) (hJ : NJ = A * BJ) (hK : NK = C * BK)
    (f : Fin NJ → Fin NK → M) :
    ∑ j : Fin NJ, ∑ k : Fin NK, f j k
      = ∑ a : Fin A, ∑ c : Fin C, ∑ jl : Fin BJ, ∑ kl : Fin BK,
          f ⟨a.val * BJ + jl.val, hJ ▸ tile_lt a jl⟩ ⟨c.val * BK + kl.val, hK ▸ tile_lt c kl⟩ := by
  rw [sum_fin_tiles A BJ hJ]
  refine Finset.sum_congr rfl fun a _ => ?_
  exact (Finset.sum_congr rfl fun jl _ => sum_fin_tiles C BK hK _).trans Finset.sum_comm

end TiledSum
-- ==== Proof.TileDot.lean ====
/-
  The inner product of two rows of length 16384, taken sixteen tiles of 1024 at a time, over the extended reals.

  `tileDot x w s` is the inner product over tile `s` (positions `s * 1024 … s * 1024 + 1023`); `partialDot x w n`
  adds the first `n` tiles. Adding tile after tile (`partialDot_succ`) from nothing (`partialDot_zero`) reaches, after
  sixteen tiles, the inner product over all 16384 positions (`partialDot_full`): addition of extended reals is
  commutative and associative, so regrouping a finite sum needs no finiteness of the terms.
-/
import Mathlib.Data.EReal.Basic
import proofs.«102757_j44856638439901_1_alg».proof.Proof.LibTiledSum

noncomputable section

open scoped BigOperators

namespace Cert.TileDot

/-- The inner product of `x` and `w` over tile `s` of length 1024. -/
def tileDot (x w : ℕ → EReal) (s : ℕ) : EReal := ∑ kk : Fin 1024, x (s * 1024 + kk.val) * w (s * 1024 + kk.val)

/-- The inner product over the first `n` tiles. -/
def partialDot (x w : ℕ → EReal) (n : ℕ) : EReal := ∑ s ∈ Finset.range n, tileDot x w s

theorem partialDot_zero (x w : ℕ → EReal) : partialDot x w 0 = 0 := Finset.sum_range_zero _

theorem partialDot_succ (x w : ℕ → EReal) (n : ℕ) : partialDot x w (n + 1) = partialDot x w n + tileDot x w n :=
  Finset.sum_range_succ _ _

/-- The first tile alone, accumulated into zero. -/
theorem partialDot_one (x w : ℕ → EReal) : partialDot x w 1 = 0 + tileDot x w 0 := by
  rw [partialDot_succ, partialDot_zero]

/-- Sixteen tiles of 1024 are the whole row of 16384. -/
theorem partialDot_full (x w : ℕ → EReal) : partialDot x w 16 = ∑ k : Fin 16384, x k.val * w k.val := by
  unfold partialDot tileDot
  rw [Finset.sum_range]
  exact ((TiledSum.sum_range_tiles 16 1024 (fun k => x k * w k)).symm).trans (Finset.sum_range _)

end Cert.TileDot

end
-- ==== Proof.Accumulate.lean ====
/-
  The accumulator point by point, and the output block at the last depth tile, at the extended reals.

  Fix an output entry: row r = i·1024 + p of the left matrix, row n = j·1024 + q of the weight. Walking the depth
  tiles k = 0, 1, …, 15 of one (i, j), the accumulator's entry (p, q) is reset to zero and then gains the inner
  product of the two rows over depth tile k at each point. So after the point with depth tile k it holds the inner
  product over the first k + 1 tiles (`acc_apply`, by induction on the point's number: at k = 0 the reset, at
  k > 0 the point before belongs to the same (i, j) and had k − 1). At k = 15 this is the inner product over all
  16384 positions, and the stored output block is that plus the bias entry n (`outBlock_apply`).
-/
import proofs.«102757_j44856638439901_1_alg».proof.Proof.Pieces
import proofs.«102757_j44856638439901_1_alg».proof.Proof.Blocks
import proofs.«102757_j44856638439901_1_alg».proof.Proof.BlockProduct
import proofs.«102757_j44856638439901_1_alg».proof.Proof.TileDot

noncomputable section

open Idealize.ShloMosaic Idealize.ShloMosaic.TcCoe Idealize.ShloMosaic.ValueIdx Idealize.SL.Sem

namespace Cert.KernelIdeal.Accumulate

open Cert.KernelIdeal Cert.KernelIdeal.Gen Cert.NatRead Cert.TileDot
open Cert.KernelIdeal.Blocks Cert.KernelIdeal.BlockProduct

variable (m : (ℓ : Loc nD τ sig) → Buf (Elt Ideal) ℓ)

/-! ### What each case leaves, in the blocks' names -/

/-- First depth tile: the reset block updated. -/
theorem acc_at_first (c : Dev nD) (t : Fin cfg0.N) (h0 : t.val % 16 = 0) (h1 : ¬t.val % 16 = 15) :
    (outsAt0 m c t.val t.isLt).2 = k0_pay2 (lhsBlk m c t) (wBlk m c t) (k0_pay1 (F := Ideal)) := by
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- A middle depth tile: what the point before left, updated. -/
theorem acc_at_middle (c : Dev nD) (t : Fin cfg0.N) (h0 : ¬t.val % 16 = 0) (h1 : ¬t.val % 16 = 15) :
    (outsAt0 m c t.val t.isLt).2
      = k0_pay2 (lhsBlk m c t) (wBlk m c t) (outsAt0 m c (t.val - 1) (Nat.lt_of_le_of_lt (Nat.sub_le _ _) t.isLt)).2 := by
  rw [outsAt0_B m c t h0 h1]
  dsimp only
  exact Pieces.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- The last depth tile: the same update; -/
theorem acc_at_last (c : Dev nD) (t : Fin cfg0.N) (h0 : ¬t.val % 16 = 0) (h1 : t.val % 16 = 15) :
    (outsAt0 m c t.val t.isLt).2
      = k0_pay2 (lhsBlk m c t) (wBlk m c t) (outsAt0 m c (t.val - 1) (Nat.lt_of_le_of_lt (Nat.sub_le _ _) t.isLt)).2 := by
  rw [outsAt0_C m c t h0 h1]
  dsimp only
  exact Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and the output block is the updated accumulator plus the bias row. -/
theorem out_at_last (c : Dev nD) (t : Fin cfg0.N) (h0 : ¬t.val % 16 = 0) (h1 : t.val % 16 = 15) :
    (outsAt0 m c t.val t.isLt).1
      = k0_pay3 (bBlk m c t) (k0_pay2 (lhsBlk m c t) (wBlk m c t) (outsAt0 m c (t.val - 1) (Nat.lt_of_le_of_lt (Nat.sub_le _ _) t.isLt)).2) := by
  rw [outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ### The two rows an output entry pairs -/

/-- Row `r` of the left matrix, as a function of the depth position. -/
abbrev lhsRow (c : Dev nD) (r : ℕ) : ℕ → EReal := fun k => at2 (lhsArr m c) r k
/-- Row `n` of the weight, as a function of the depth position. -/
abbrev wRow (c : Dev nD) (n : ℕ) : ℕ → EReal := fun k => at2 (wArr m c) n k

/-- The block product's entry (p, q) at point `t` is the inner product of the two rows over depth tile t % 16. -/
theorem blockDot_eq (c : Dev nD) (t : Fin cfg0.N) (p q : Fin 1024) :
    ∑ kk : Fin 1024, lhsBlk m c t (ix2 p kk) * wBlk m c t (ix2 q kk)
      = tileDot (lhsRow m c (t.val / 64 * 1024 + p.val)) (wRow m c (t.val / 16 % 4 * 1024 + q.val)) (t.val % 16) := by
  unfold tileDot
  refine Finset.sum_congr rfl fun kk _ => ?_
  rw [lhsBlk_apply, wBlk_apply]

/-- THE ACCUMULATOR after point `n`: the inner product of the two rows over the first n % 16 + 1 depth tiles. -/
theorem acc_apply (c : Dev nD) : ∀ (n : ℕ) (h : n < cfg0.N) (p q : Fin 1024),
    (outsAt0 m c n h).2 (ix2 p q)
      = partialDot (lhsRow m c (n / 64 * 1024 + p.val)) (wRow m c (n / 16 % 4 * 1024 + q.val)) (n % 16 + 1) := by
  intro n
  induction n with
  | zero =>
    intro h p q
    rw [acc_at_first m c ⟨0, h⟩ (Nat.zero_mod _) (by show ¬(0 % 16 = 15); omega), updateBlock_apply, resetBlock_apply, blockDot_eq]
    exact (partialDot_one _ _).symm
  | succ n ih =>
    intro h p q
    by_cases h0 : (n + 1) % 16 = 0
    · have h1 : ¬(n + 1) % 16 = 15 := by omega
      rw [acc_at_first m c ⟨n + 1, h⟩ h0 h1, updateBlock_apply, resetBlock_apply, blockDot_eq]
      show _ = partialDot _ _ ((n + 1) % 16 + 1)
      rw [h0]
      exact (partialDot_one _ _).symm
    · have hprev : (outsAt0 m c ((⟨n + 1, h⟩ : Fin cfg0.N).val - 1) (Nat.lt_of_le_of_lt (Nat.sub_le _ _) (⟨n + 1, h⟩ : Fin cfg0.N).isLt)).2 (ix2 p q)
          = partialDot (lhsRow m c ((n + 1) / 64 * 1024 + p.val)) (wRow m c ((n + 1) / 16 % 4 * 1024 + q.val)) ((n + 1) % 16) := by
        show (outsAt0 m c n _).2 (ix2 p q) = _
        rw [ih (Nat.lt_of_succ_lt h) p q]
        have e1 : n / 64 = (n + 1) / 64 := by omega
        have e2 : n / 16 % 4 = (n + 1) / 16 % 4 := by omega
        have e3 : n % 16 + 1 = (n + 1) % 16 := by omega
        rw [e1, e2, e3]
      have hstep : (outsAt0 m c (n + 1) h).2 (ix2 p q)
          = (outsAt0 m c ((⟨n + 1, h⟩ : Fin cfg0.N).val - 1) (Nat.lt_of_le_of_lt (Nat.sub_le _ _) (⟨n + 1, h⟩ : Fin cfg0.N).isLt)).2 (ix2 p q)
            + ∑ kk : Fin 1024, lhsBlk m c ⟨n + 1, h⟩ (ix2 p kk) * wBlk m c ⟨n + 1, h⟩ (ix2 q kk) := by
        by_cases h1 : (n + 1) % 16 = 15
        · rw [acc_at_last m c ⟨n + 1, h⟩ h0 h1, updateBlock_apply]
        · rw [acc_at_middle m c ⟨n + 1, h⟩ h0 h1, updateBlock_apply]
      rw [hstep, hprev, blockDot_eq]
      exact (partialDot_succ _ _ _).symm

/-- THE OUTPUT BLOCK at a last depth tile: entry (p, q) is the inner product of row i·1024 + p of the left matrix and
    row j·1024 + q of the weight over all 16384 positions, plus the bias entry j·1024 + q. -/
theorem outBlock_apply (c : Dev nD) (t : Fin cfg0.N) (h1 : t.val % 16 = 15) (p q : Fin 1024) :
    (outsAt0 m c t.val t.isLt).1 (ix2 p q)
      = (∑ k : Fin 16384, at2 (lhsArr m c) (t.val / 64 * 1024 + p.val) k.val * at2 (wArr m c) (t.val / 16 % 4 * 1024 + q.val) k.val)
        + at1 (bArr m c) (t.val / 16 % 4 * 1024 + q.val) := by
  have h0 : ¬t.val % 16 = 0 := by omega
  rw [out_at_last m c t h0 h1, biasedBlock_apply, bBlk_apply, ← acc_at_last m c t h0 h1, acc_apply m c t.val t.isLt p q, h1]
  exact congrArg (· + _) (partialDot_full _ _)

end Cert.KernelIdeal.Accumulate

end
-- ==== Proof.Spec.lean ====
/-
  The function both programs compute, over the extended reals: a linear layer on a sequence-by-batch input,
      y[s, b, n] = ∑ k, x[s, b, k] · w[n, k]  +  bias[n],
  with x of shape 2048 × 4 × 16384, the weight stored output-major (4096 × 16384) and a bias of length 4096.
  `linearAt` is one entry from natural-number coordinates (row r = s · 4 + b of the input flattened to
  8192 × 16384); `linear` is the whole result.
-/
import proofs.«102757_j44856638439901_1_alg».proof.Proof.NatRead

noncomputable section

open Idealize.ShloMosaic Idealize.ShloMosaic.ValueIdx

namespace Cert.Spec

open Cert.NatRead

/-- The result as one function of the three arrays. -/
def linear (x : (⟨3, ![2048, 4, 16384]⟩ : Shape).Idx → EReal) (w : (⟨2, ![4096, 16384]⟩ : Shape).Idx → EReal)
    (b : (⟨1, ![4096]⟩ : Shape).Idx → EReal) : (⟨3, ![2048, 4, 4096]⟩ : Shape).Idx → EReal :=
  fun i => (∑ k : Fin 16384, x (ix3 (i 0) (i 1) k) * w (ix2 (i 2) k)) + b (ix1 (i 2))

/-- One entry of the product of the flattened input (8192 × 16384) with the weight, plus the bias, from the
    coordinates: row `r` of the flattened input against row `n` of the weight. -/
def linearAt (x2 : (⟨2, ![8192, 16384]⟩ : Shape).Idx → EReal) (w : (⟨2, ![4096, 16384]⟩ : Shape).Idx → EReal)
    (b : (⟨1, ![4096]⟩ : Shape).Idx → EReal) (r n : ℕ) : EReal :=
  (∑ k : Fin 16384, at2 x2 r k.val * at2 w n k.val) + at1 b n

/-- Reading at the coordinates of an index gives the entry back. -/
theorem at2_ix2 {α : Type} [Zero α] {n0 n1 : Nat} (x : (⟨2, ![n0, n1]⟩ : Shape).Idx → α) (a : Fin n0) (b : Fin n1) :
    at2 x a.val b.val = x (ix2 a b) := (at2_of_val x (ix2 a b) a.val b.val rfl rfl).symm
theorem at1_ix1 {α : Type} [Zero α] {n : Nat} (x : (⟨1, ![n]⟩ : Shape).Idx → α) (a : Fin n) :
    at1 x a.val = x (ix1 a) := (at1_of_val x (ix1 a) a.val rfl).symm

end Cert.Spec

end
-- ==== Proof.Result.lean ====
/-
  The kernel's result, as an array.

  Each output block is written back once, at its last depth tile, holding the full inner products plus the bias
  (`Accumulate.outBlock_apply`); the 8 × 4 output blocks tile the 8192 × 4096 array, so after the run the array
  holds, at (r, n), the inner product of row r of the flattened input with row n of the weight, plus bias[n]
  (`product_final`). The flattened input is the input with its first two axes merged, row r = s · 4 + b
  (`lhsRow_of_input`), and the kernel's result is the 8192 × 4096 array with its first axis split back into
  2048 × 4 (`run`): entry (s, b, n) is `Spec.linear` of the three arguments.
-/
import proofs.«102757_j44856638439901_1_alg».proof.Proof.Accumulate
import proofs.«102757_j44856638439901_1_alg».proof.Proof.Spec
import Idealize.ShloMosaic.Lib.Pipeline.Value
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.NatRead Cert.Spec
open Cert.KernelIdeal.Blocks Cert.KernelIdeal.Accumulate

variable (m : (ℓ : Loc nD τ sig) → Buf (Elt Ideal) ℓ) (ρ : Dev nD → PrngReg)

/-- The three arguments as launched. -/
abbrev xIn (c : Dev nD) : Vec Ideal S2048x4x16384 .f32 := m ((c : Thread nD τ).loc main_arg0)
abbrev wIn (c : Dev nD) : Vec Ideal S4096x16384 .f32 := m ((c : Thread nD τ).loc main_arg1)
abbrev bIn (c : Dev nD) : Vec Ideal S4096 .f32 := m ((c : Thread nD τ).loc main_arg2)

/-- The 8192 × 4096 product plus bias, of the arrays as the region finds them. -/
def product (c : Dev nD) : Vec Ideal S8192x4096 .f32 :=
  fun j => linearAt (lhsArr m c) (wArr m c) (bArr m c) (j 0).val (j 1).val

/-- An index of the result array is in point `t`'s output block iff each coordinate is in the block's range. -/
theorem mem_outBlk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- What a writing point writes back is its block of `product`. -/
theorem flushed_eq (c : Dev nD) (t : Fin cfg0.N) (hf : (cfg0.win 3).flush t = true) :
    (dats m 0 c).flushed 3 t = ((cfg0.win 3).blk t).view.read (Elt Ideal) (product m c) := by
  have h1 : t.val % 16 = 15 := (flush0_3 t).mp hf
  obtain ⟨-, -, -, -, -, e0, e1⟩ := tile_of_point t
  show (cfg0.win 3).cut (grid0.coords t) ((dats m 0 c).after 3 t) = _
  rw [after0_3]
  funext y
  rw [View.read_apply]
  show (outsAt0 m c t.val t.isLt).1 y = product m c (((cfg0.win 3).blk t).view.emb y)
  obtain ⟨p, q, rfl⟩ : ∃ (p q : Fin 1024), y = ix2 p q := ⟨y 0, y 1, eq_ix2 y⟩
  rw [outBlock_apply m c t h1 p q]
  unfold product
  have r0 : ((((cfg0.win 3).blk t).view.emb (ix2 p q)) 0).val = t.val / 64 * 1024 + p.val := by
    show win0_3.index t (0 : Fin 2) * 1024 + 1 * p.val = _
    rw [e0]; omega
  have r1 : ((((cfg0.win 3).blk t).view.emb (ix2 p q)) 1).val = t.val / 16 % 4 * 1024 + q.val := by
    show win0_3.index t (1 : Fin 2) * 1024 + 1 * q.val = _
    rw [e1]; omega
  rw [r0, r1]
  rfl

/-- Every entry of the result array lies in the block of a writing point: the last depth tile of its (i, j). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 512 := N_0
  let t : Fin cfg0.N := ⟨(i 0).val / 1024 * 64 + (i 1).val / 1024 * 16 + 15, by omega⟩
  have ht : t.val = (i 0).val / 1024 * 64 + (i 1).val / 1024 * 16 + 15 := rfl
  obtain ⟨-, -, -, -, -, e0, e1⟩ := tile_of_point t
  refine ⟨t, (flush0_3 t).mpr (by omega), ?_⟩
  rw [mem_outBlk]
  intro a
  match a with
  | ⟨0, _⟩ => show win0_3.index t (0 : Fin 2) * 1024 ≤ (i 0).val ∧ (i 0).val < win0_3.index t (0 : Fin 2) * 1024 + 1024
              rw [e0]; omega
  | ⟨1, _⟩ => show win0_3.index t (1 : Fin 2) * 1024 ≤ (i 1).val ∧ (i 1).val < win0_3.index t (1 : Fin 2) * 1024 + 1024
              rw [e1]; omega

/-- The result array after the run. -/
theorem product_final (c : Dev nD) : (dats m 0 c).arrAt 3 cfg0.N = product m c :=
  (dats m 0 c).arrAt_eq_of_cover 3 (product m c) (flushed_eq m c) covered

/-! ### The host's two reshapes -/

/-- The region finds the left matrix as the input with its first two axes merged. -/
theorem lhsArr_eq (c : Dev nD) :
    lhsArr m c = shapeCast S8192x16384 (xIn m c) shapeCasts_S2048x4x16384_S8192x16384 := by
  show StableHlo.after hostOps0 (fun b => m (c, b)) (Proc.devRef .tc main_v0) = _
  after_results
  rfl

/-- Row s · 4 + b of the flattened input is row (s, b) of the input. -/
theorem lhs_of_input (c : Dev nD) (s : Fin 2048) (b : Fin 4) (k : Fin 16384) :
    at2 (lhsArr m c) (s.val * 4 + b.val) k.val = xIn m c (ix3 s b k) := by
  have hs := s.isLt
  have hb := b.isLt
  have hr : s.val * 4 + b.val < 8192 := by omega
  rw [show at2 (lhsArr m c) (s.val * 4 + b.val) k.val = lhsArr m c (ix2 ⟨s.val * 4 + b.val, hr⟩ k) from at2_ix2 (lhsArr m c) ⟨s.val * 4 + b.val, hr⟩ k,
    lhsArr_eq]
  exact shapeCast_apply _ _ _ (ix3 s b k) (by
    rw [Shape.rowMajor_val_three, Shape.rowMajor_val_two]
    show (s.val * 4 + b.val) * 16384 + k.val = (s.val * 4 + b.val) * 16384 + k.val
    rfl)

/-- The product at row s · 4 + b, column n, is the linear layer's entry (s, b, n). -/
theorem product_of_input (c : Dev nD) (s : Fin 2048) (b : Fin 4) (n : Fin 4096) :
    linearAt (lhsArr m c) (wArr m c) (bArr m c) (s.val * 4 + b.val) n.val
      = linear (xIn m c) (wIn m c) (bIn m c) (ix3 s b n) := by
  have hw : wArr m c = wIn m c := V_main_arg1 m c
  have hb : bArr m c = bIn m c := V_main_arg2 m c
  show (∑ k : Fin 16384, at2 (lhsArr m c) (s.val * 4 + b.val) k.val * at2 (wArr m c) n.val k.val) + at1 (bArr m c) n.val
    = (∑ k : Fin 16384, xIn m c (ix3 s b k) * wIn m c (ix2 n k)) + bIn m c (ix1 n)
  have e1 : at1 (bArr m c) n.val = bIn m c (ix1 n) :=
    (congrArg (fun z : Vec Ideal S4096 .f32 => at1 z n.val) hb).trans (at1_ix1 (bIn m c) n)
  have e2 : ∀ k : Fin 16384, at2 (wArr m c) n.val k.val = wIn m c (ix2 n k) := fun k =>
    (congrArg (fun z : Vec Ideal S4096x16384 .f32 => at2 z n.val k.val) hw).trans (at2_ix2 (wIn m c) n k)
  exact congrArg₂ (· + ·) (Finset.sum_congr rfl fun k _ => congrArg₂ (· * ·) (lhs_of_input m c s b k) (e2 k)) e1

/-- The kernel's result buffer: the product array with its first axis split into 2048 × 4. -/
theorem result_eq (c : Dev nD) :
    Pipeline.afterTail₀ cfgs (dats m) 0 (V0 m) [hostOps1] c main_v2
      = linear (xIn m c) (wIn m c) (bIn m c) := by
  unfold Pipeline.afterTail₀
  show StableHlo.after hostOps1 _ (Proc.devRef .tc main_v2) = _
  after_results
  rw [show Pipeline.withArrays spec0 c (V0 m c) (fun w => (dats m 0 c).arrAt w cfg0.N) (Proc.devRef .tc main_v1) = product m c from
    (Pipeline.withArrays_arr spec0 launch0.win.arr_inj c _ _ 3).trans (product_final m c)]
  show shapeCast S2048x4x4096 (product m c) shapeCasts_S8192x4096_S2048x4x4096 = _
  funext i
  obtain ⟨s, b, n, rfl⟩ : ∃ (s : Fin 2048) (b : Fin 4) (n : Fin 4096), i = ix3 s b n := ⟨i 0, i 1, i 2, eq_ix3 i⟩
  have hs := s.isLt
  have hb := b.isLt
  have hr : s.val * 4 + b.val < 8192 := by omega
  rw [shapeCast_apply (product m c) shapeCasts_S8192x4096_S2048x4x4096 (ix3 s b n) (ix2 ⟨s.val * 4 + b.val, hr⟩ n) (by
    rw [Shape.rowMajor_val_three, Shape.rowMajor_val_two]
    show (s.val * 4 + b.val) * 4096 + n.val = (s.val * 4 + b.val) * 4096 + n.val
    rfl)]
  exact product_of_input m c s b n

/-- THE RUN: every weakly fair execution terminates with the result buffer at the linear layer of the arguments,
    the arguments unchanged. -/
theorem run : θ_run defs (onTc (τ := τ) (main (F := Ideal))) ⟨m, fun _ => 0, ρ⟩ fun r => ∀ c : Dev nD,
      r.2.mem ((c.tc : Thread nD τ).loc main_v2)
        = linear (xIn m c) (wIn m c) (bIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.Reference.lean ====
/-
  The reference, entry by entry: the host's contraction of the input's last axis with the weight's last axis is
  the sum over k of x[s, b, k] · w[n, k], and the bias, broadcast first to 1 × 1 × 4096 and then to the result's
  shape, adds bias[n]. So the reference's result is `Spec.linear` of its three arguments.
-/
import proofs.«102757_j44856638439901_1_alg».proof.Proof.Gen.ReferenceIdeal.Read
import proofs.«102757_j44856638439901_1_alg».proof.Proof.Spec

noncomputable section

open Idealize.ShloMosaic Idealize.ShloMosaic.ValueIdx

namespace Cert.ReferenceIdeal.RefValue

open Cert.ReferenceIdeal Cert.ReferenceIdeal.Read

theorem lidx_eq (i : S2048x4x4096.Idx) (k : Fin 16384) : lidx_main_v0 i k = ix3 (i 0) (i 1) k :=
  funext fun a => by match a with | ⟨0, _⟩ => rfl | ⟨1, _⟩ => rfl | ⟨2, _⟩ => rfl
theorem ridx_eq (i : S2048x4x4096.Idx) (k : Fin 16384) : ridx_main_v0 i k = ix2 (i 2) k :=
  funext fun a => by match a with | ⟨0, _⟩ => rfl | ⟨1, _⟩ => rfl
theorem bidx_eq (i : S2048x4x4096.Idx) : idx_main_v1 (idx_main_v2 i) = ix1 (i 2) :=
  funext fun a => by match a with | ⟨0, _⟩ => rfl

/-- The reference's result term is the linear layer of its arguments. -/
theorem result_eq (x0 : (⟨S2048x4x16384, .f32⟩ : BufTy).Contents (Elt Ideal)) (x1 : (⟨S4096x16384, .f32⟩ : BufTy).Contents (Elt Ideal))
    (x2 : (⟨S4096, .f32⟩ : BufTy).Contents (Elt Ideal)) :
    val_main_v3 (F := Ideal) x0 x1 x2 = Cert.Spec.linear x0 x1 x2 := by
  funext i
  rw [val_main_v3_apply, val_main_v0_apply, val_main_v2_apply, val_main_v1_apply]
  simp only [lidx_eq, ridx_eq, bidx_eq]
  rfl

end Cert.ReferenceIdeal.RefValue

end
-- ==== Proof.lean ====
/- A row-parallel linear layer on one device, proved equal to its reference over the extended reals.

   Both programs compute y[s, b, n] = ∑ k, x[s, b, k] · w[n, k] + bias[n] (x : 2048 × 4 × 16384, w : 4096 × 16384
   stored output-major, bias : 4096). The kernel merges the first two axes of x, walks an 8 × 4 × 16 grid of
   1024-tiles with the depth axis fastest, keeps a 1024 × 1024 accumulator that is zeroed at depth tile 0 and gains
   one block product per point, and at depth tile 15 stores the accumulator plus the bias row; the result is split
   back to 2048 × 4 × 4096. Over the extended reals the rounding to bf16 before each block product is the identity,
   and sixteen partial inner products of length 1024 add up to the inner product of length 16384 because addition is
   commutative and associative there (no finiteness is needed, so the precondition is never opened). The reference's
   contraction and broadcast bias read entry by entry as the same function (`Spec.linear`).

   The three frames are the generated ones (the reference's is its generated run with the result dropped); the
   idealization rewrote nothing, so `preserves` is trivial. -/
import proofs.«102757_j44856638439901_1_alg».proof.Defs
import proofs.«102757_j44856638439901_1_alg».proof.Proof.Gen.Kernel
import proofs.«102757_j44856638439901_1_alg».proof.Proof.Gen.Kernel.Skeleton
import proofs.«102757_j44856638439901_1_alg».proof.Proof.Gen.Kernel.Launch
import proofs.«102757_j44856638439901_1_alg».proof.Proof.Gen.Kernel.Points
import proofs.«102757_j44856638439901_1_alg».proof.Proof.Gen.Kernel.Frame
import proofs.«102757_j44856638439901_1_alg».proof.Proof.Gen.KernelIdeal
import proofs.«102757_j44856638439901_1_alg».proof.Proof.Gen.KernelIdeal.Skeleton
import proofs.«102757_j44856638439901_1_alg».proof.Proof.Gen.KernelIdeal.Launch
import proofs.«102757_j44856638439901_1_alg».proof.Proof.Gen.KernelIdeal.Points
import proofs.«102757_j44856638439901_1_alg».proof.Proof.Gen.KernelIdeal.Frame
import proofs.«102757_j44856638439901_1_alg».proof.Proof.Gen.ReferenceIdeal
import proofs.«102757_j44856638439901_1_alg».proof.Proof.Gen.ReferenceIdeal.Run
import proofs.«102757_j44856638439901_1_alg».proof.Proof.Gen.ReferenceIdeal.Read
import proofs.«102757_j44856638439901_1_alg».proof.Proof.Gen.Pre_finite_inputs
import proofs.«102757_j44856638439901_1_alg».proof.Proof.Result
import proofs.«102757_j44856638439901_1_alg».proof.Proof.Reference
import Idealize.ShloMosaic.Adequacy
import Idealize.ShloMosaic.Init

noncomputable section

namespace Cert.Proof

open Idealize.ShloMosaic Idealize.SL.Sem Cert.Kernel

/-- From memories that agree on the three arguments, the kernel's result buffer and the reference's both end at the
    linear layer of those arguments. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
